-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x64 : Shape := ⟨2, ![128, 64]⟩
abbrev S64x64 : Shape := ⟨2, ![64, 64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S4096x128 .f32) (main_arg1 : FVec F S4096x4096 .f32) (main_arg2 : FVec F S128x64 .f32) (main_arg3 : FVec F S64x64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S4096x128 : Shape := ⟨2, ![4096, 128]⟩
abbrev S4096x4096 : Shape := ⟨2, ![4096, 4096]⟩
abbrev S128x64 : Shape := ⟨2, ![128, 64]⟩
abbrev S64x64 : Shape := ⟨2, ![64, 64]⟩
abbrev S_ : Shape := ⟨0, ![]⟩
abbrev S128x128 : Shape := ⟨2, ![128, 128]⟩
abbrev S64x72 : Shape := ⟨2, ![64, 72]⟩
abbrev S4096x64 : Shape := ⟨2, ![4096, 64]⟩
abbrev S1024x4096 : Shape := ⟨2, ![1024, 4096]⟩
abbrev S72x4096 : Shape := ⟨2, ![72, 4096]⟩
abbrev S1024x128 : Shape := ⟨2, ![1024, 128]⟩
abbrev S1024x64 : Shape := ⟨2, ![1024, 64]⟩
abbrev S1024x1 : Shape := ⟨2, ![1024, 1]⟩
abbrev S1024x72 : Shape := ⟨2, ![1024, 72]⟩
abbrev S64x4096 : Shape := ⟨2, ![64, 4096]⟩
abbrev S1x4096 : Shape := ⟨2, ![1, 4096]⟩

abbrev nBuf : Space → Nat
  | .hbm => 11
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S64x64, .f32⟩
  | .hbm, ⟨4, _⟩ => ⟨S_, .i32⟩
  | .hbm, ⟨5, _⟩ => ⟨S_, .f32⟩
  | .hbm, ⟨6, _⟩ => ⟨S128x128, .f32⟩
  | .hbm, ⟨7, _⟩ => ⟨S_, .i32⟩
  | .hbm, ⟨8, _⟩ => ⟨S_, .f32⟩
  | .hbm, ⟨9, _⟩ => ⟨S64x72, .f32⟩
  | .hbm, ⟨10, _⟩ => ⟨S4096x64, .f32⟩
  | .local _ .vmem, ⟨0, _⟩ => ⟨S4096x128, .f32⟩
  | .local _ .vmem, ⟨1, _⟩ => ⟨S128x128, .f32⟩
  | .local _ .vmem, ⟨2, _⟩ => ⟨S64x72, .f32⟩
  | .local _ .vmem, ⟨3, _⟩ => ⟨S1024x4096, .f32⟩
  | .local _ .vmem, ⟨4, _⟩ => ⟨S1024x4096, .f32⟩
  | .local _ .vmem, ⟨5, _⟩ => ⟨S4096x64, .f32⟩
  | .local _ .vmem, ⟨6, _⟩ => ⟨S4096x128, .bf16⟩
  | .local _ .vmem, ⟨7, _⟩ => ⟨S72x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![4], ![false]⟩

def k0_cond4 (i : grid0.Coords) : BitVec 1 :=
  let arg0 : BitVec 32 := BitVec.ofNat 32 (i 0).val
  let c3_i32 : BitVec 32 := 3#32
  let v30 : BitVec 1 := Scalar.cmpi .eq arg0 c3_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x72 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  pads_S128x64_S128x128_000_0640 : S128x64.Pads (![0, 0] : Fin 2 → Nat) ![0, 64] ![0, 0] S128x128
  h_S_ : 0 < S_.numel
  pads_S64x64_S64x72_000_080 : S64x64.Pads (![0, 0] : Fin 2 → Nat) ![0, 8] ![0, 0] S64x72
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S4096x128_d1_w32 : S4096x128.Iotas .tc 32 [1]
  bitsLt_bf16_f32 : FTy.bits .bf16 < FTy.bits .f32
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S1024x4096_S1024x4096_0_0 : ∀ a, (![0, 0] : Fin 2 → Nat) a + S1024x4096.size a ≤ S1024x4096.size a
  h_S1024x4096 : 0 < S1024x4096.numel
  slices_S1024x128_o0_0_S1024x64 : S1024x128.Slices ![0, 0] S1024x64
  slices_S1024x128_o0_64_S1024x1 : S1024x128.Slices ![0, 64] S1024x1
  broadcasts_S1024x1_S1024x64 : S1024x1.Broadcasts S1024x64
  inb_S64x72_S64x72_0_0 : ∀ a, (![0, 0] : Fin 2 → Nat) a + S64x72.size a ≤ S64x72.size a
  h_S64x72 : 0 < S64x72.numel
  shapeCasts_S64x72_S64x72 : S64x72.ShapeCasts S64x72
  iota_S1024x72_d1_w32 : S1024x72.Iotas .tc 32 [1]
  inb_S72x4096_S72x4096_0_0 : ∀ a, (![0, 0] : Fin 2 → Nat) a + S72x4096.size a ≤ S72x4096.size a
  h_S72x4096 : 0 < S72x4096.numel
  shapeCasts_S72x4096_S72x4096 : S72x4096.ShapeCasts S72x4096
  inb_S72x4096_S64x4096_0_0 : ∀ a, (![0, 0] : Fin 2 → Nat) a + S64x4096.size a ≤ S72x4096.size a
  h_S64x4096 : 0 < S64x4096.numel
  inb_S72x4096_S1x4096_64_0 : ∀ a, (![64, 0] : Fin 2 → Nat) a + S1x4096.size a ≤ S72x4096.size a
  h_S1x4096 : 0 < S1x4096.numel
  broadcasts_S1x4096_S64x4096 : S1x4096.Broadcasts S64x4096
  transposes_S64x4096_p1_0_S4096x64 : S64x4096.Transposes [1, 0] S4096x64
  inb_S4096x64_S4096x64_0_0 : ∀ a, (![0, 0] : Fin 2 → Nat) a + S4096x64.size a ≤ S4096x64.size a
  h_S4096x64 : 0 < S4096x64.numel
  dot_S4096x128_S128x128_S4096x128_1_0_0_1_n_n_wf : DotDims.WF S4096x128 S128x128 S4096x128 [1] [0] [0] [1] [] []
  dot_S1024x4096_S4096x128_S1024x128_1_0_0_1_n_n_wf : DotDims.WF S1024x4096 S4096x128 S1024x128 [1] [0] [0] [1] [] []
  dot_S1024x64_S64x72_S1024x72_1_0_0_1_n_n_wf : DotDims.WF S1024x64 S64x72 S1024x72 [1] [0] [0] [1] [] []
  dot_S1024x72_S1024x4096_S72x4096_0_0_1_1_n_n_wf : DotDims.WF S1024x72 S1024x4096 S72x4096 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x72.size a ≤ S64x72.size a
  hwx0_2 : ∀ i : grid0.Coords, EltTy.bits .f32 = 32 ∨ (Rect.block (s := S64x72) S64x72.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S4096x4096.size a
  hwx0_3 : ∀ i : grid0.Coords, EltTy.bits .f32 = 32 ∨ (Rect.block (s := S4096x4096) S1024x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S4096x64.size a
  hwx0_4 : ∀ i : grid0.Coords, EltTy.bits .f32 = 32 ∨ (Rect.block (s := S4096x64) S4096x64.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x64_S64x72_S1024x72_1_0_0_1_n_n : DotDims S1024x64 S64x72 S1024x72 where
  lhsContracting := [1]
  rhsContracting := [0]
  lhsNonContracting := [0]
  rhsNonContracting := [1]
  lhsBatch := []
  rhsBatch := []
  wf := dot_S1024x64_S64x72_S1024x72_1_0_0_1_n_n_wf
def dot_S1024x72_S1024x4096_S72x4096_0_0_1_1_n_n : DotDims S1024x72 S1024x4096 S72x4096 where
  lhsContracting := [0]
  rhsContracting := [0]
  lhsNonContracting := [1]
  rhsNonContracting := [1]
  lhsBatch := []
  rhsBatch := []
  wf := dot_S1024x72_S1024x4096_S72x4096_0_0_1_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x72.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x64 : Shape := ⟨2, ![128, 64]⟩
abbrev S64x64 : Shape := ⟨2, ![64, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S64x64, .f32⟩
  | .hbm, ⟨4, _⟩ => ⟨S4096x4096, .f32⟩
  | .hbm, ⟨5, _⟩ => ⟨S4096x64, .f32⟩
  | .hbm, ⟨6, _⟩ => ⟨S4096x64, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S_, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S_, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S4096x64, .f32⟩
  | .hbm, ⟨40, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S4096x64 : S_.BroadcastsInDim S4096x64 (![] : Fin 0 → Fin S4096x64.rank)
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x64_S64x64_S4096x64_1_0_0_1_n_n_wf : DotDims.WF S4096x64 S64x64 S4096x64 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
The mathematics of the two-step incidence convolution, with no program in sight.

For an incidence matrix `B` (edges × faces), face features `X` and weights `W1`, `W2`:

* edges:  `edge r k = σ ((∑ q, B r q · (X·W1) q k) · (1 / ∑ q, B r q))`
* faces:  `face f j = σ ((∑ r, (edge·W2) r j · B r f) · (1 / ∑ r, B r f))`

with `σ x = 1 / (1 + e^(-x))` and the quotient the extended reals' total one.  The kernel computes the same
numbers in another arrangement: the message matrices carry a column of ones at index 64, so that the row sums
(column sums) of `B` fall out of the same matrix product, and the edges are visited in four blocks of 1024 rows
whose contributions to the face sums are added up block by block.  Only associativity and commutativity of
the sum, `x · 1 = x` and `1 · x = x` relate the two arrangements: nothing here asks the inputs to be finite.
-/

noncomputable section

open scoped BigOperators

namespace Cert.Spec

open Idealize.ShloMosaic

/-! ## Edge rows in four blocks of 1024 -/

/-- Edge row `1024·t + r` is row `r` of block `t`. -/
def blockEquiv : Fin 4 × Fin 1024 ≃ Fin 4096 where
  toFun p := ⟨1024 * p.1.val + p.2.val, by have := p.1.isLt; have := p.2.isLt; omega⟩
  invFun r := (⟨r.val / 1024, by have := r.isLt; omega⟩, ⟨r.val % 1024, Nat.mod_lt _ (by decide)⟩)
  left_inv p := by
    obtain ⟨⟨a, ha⟩, ⟨b, hb⟩⟩ := p
    simp only [Prod.mk.injEq, Fin.mk.injEq]
    omega
  right_inv r := by
    apply Fin.ext
    simp only
    omega

/-- A sum over all edge rows is the sum over the blocks of the sums over each block's rows. -/
theorem sum_blocks (g : Fin 4096 → EReal) :
    ∑ r : Fin 4096, g r = ∑ t : Fin 4, ∑ r : Fin 1024, g (blockEquiv (t, r)) := by
  rw [← Equiv.sum_comp blockEquiv g, Fintype.sum_prod_type]

/-- Column `k < 64` of a 128- or 72-column padded matrix. -/
abbrev col128 (k : Fin 64) : Fin 128 := ⟨k.val, by have := k.isLt; omega⟩
abbrev col72 (k : Fin 64) : Fin 72 := ⟨k.val, by have := k.isLt; omega⟩
/-- The column of ones. -/
abbrev one128 : Fin 128 := ⟨64, by decide⟩
abbrev one72 : Fin 72 := ⟨64, by decide⟩

/-- A rank-2 array as a function of its two coordinates. -/
abbrev mat {a b : Nat} (x : (⟨2, ![a, b]⟩ : Shape).Idx → EReal) : Fin a → Fin b → EReal :=
  fun p q => x (ValueIdx.ix2 p q)

/-! ## The layer, as the reference arranges it -/

section Layer
variable (X : Fin 4096 → Fin 128 → EReal) (B : Fin 4096 → Fin 4096 → EReal)
variable (W1 : Fin 128 → Fin 64 → EReal) (W2 : Fin 64 → Fin 64 → EReal)

/-- The first message: `X · W1`. -/
def msg1 (q : Fin 4096) (k : Fin 64) : EReal := ∑ p : Fin 128, X q p * W1 p k
/-- The size of edge `r`'s neighbourhood: the row sum of `B`. -/
def rowSum (r : Fin 4096) : EReal := ∑ q : Fin 4096, B r q
/-- The first message gathered on the edges: `B · (X · W1)`. -/
def agg1 (r : Fin 4096) (k : Fin 64) : EReal := ∑ q : Fin 4096, B r q * msg1 X W1 q k
/-- The edge features: the normalised message through the logistic function. -/
def edge (r : Fin 4096) (k : Fin 64) : EReal := Ideal.logistic (agg1 X B W1 r k * Ideal.div 1 (rowSum B r))
/-- The second message: `edge · W2`. -/
def msg2 (r : Fin 4096) (j : Fin 64) : EReal := ∑ k : Fin 64, edge X B W1 r k * W2 k j
/-- The size of face `f`'s neighbourhood: the column sum of `B`. -/
def colSum (f : Fin 4096) : EReal := ∑ r : Fin 4096, B r f
/-- The second message gathered on the faces: `Bᵀ · (edge · W2)`. -/
def agg2 (f : Fin 4096) (j : Fin 64) : EReal := ∑ r : Fin 4096, msg2 X B W1 W2 r j * B r f
/-- The layer's result. -/
def face (f : Fin 4096) (j : Fin 64) : EReal := Ideal.logistic (agg2 X B W1 W2 f j * Ideal.div 1 (colSum B f))

end Layer

/-! ## The same, as the kernel arranges it -/

section Kernel
variable (X : Fin 4096 → Fin 128 → EReal) (W1p : Fin 128 → Fin 128 → EReal)

/-- The first message padded to 128 columns, column 64 overwritten with ones. -/
def m1e (q : Fin 4096) (c : Fin 128) : EReal := if c.val = 64 then 1 else ∑ p : Fin 128, X q p * W1p p c

variable (Bb : Fin 1024 → Fin 4096 → EReal) (M : Fin 4096 → Fin 128 → EReal) (W2p : Fin 64 → Fin 72 → EReal)

/-- One block of rows of `B` times the padded message: columns below 64 the gathered message, column 64 the row sums. -/
def y1e (r : Fin 1024) (c : Fin 128) : EReal := ∑ q : Fin 4096, Bb r q * M q c
/-- The block's edge features. -/
def x1b (r : Fin 1024) (k : Fin 64) : EReal :=
  Ideal.logistic (y1e Bb M r (col128 k) * Ideal.div 1 (y1e Bb M r one128))
/-- The block's second message padded to 72 columns, column 64 overwritten with ones. -/
def m2e (r : Fin 1024) (j : Fin 72) : EReal := if j.val = 64 then 1 else ∑ k : Fin 64, x1b Bb M r k * W2p k j
/-- The block's contribution to the face sums: rows below 64 the gathered second message, row 64 the column sums. -/
def contrib (j : Fin 72) (f : Fin 4096) : EReal := ∑ r : Fin 1024, m2e Bb M W2p r j * Bb r f

end Kernel

/-! ## The two arrangements agree -/

section Agree
variable (X : Fin 4096 → Fin 128 → EReal) (B : Fin 4096 → Fin 4096 → EReal)
variable (W1 : Fin 128 → Fin 64 → EReal) (W2 : Fin 64 → Fin 64 → EReal)
variable (W1p : Fin 128 → Fin 128 → EReal) (W2p : Fin 64 → Fin 72 → EReal)

/-- Block `t` of the rows of `B`. -/
def rows (t : Fin 4) : Fin 1024 → Fin 4096 → EReal := fun r q => B (blockEquiv (t, r)) q

variable (h1 : ∀ p (k : Fin 64), W1p p (col128 k) = W1 p k) (h2 : ∀ k (j : Fin 64), W2p k (col72 j) = W2 k j)

include h1 in
theorem m1e_col (q : Fin 4096) (k : Fin 64) : m1e X W1p q (col128 k) = msg1 X W1 q k := by
  unfold m1e msg1
  rw [if_neg (by have := k.isLt; show ¬k.val = 64; omega)]
  exact Finset.sum_congr rfl fun p _ => by rw [h1]

theorem m1e_one (q : Fin 4096) : m1e X W1p q one128 = 1 := if_pos rfl

include h1 in
theorem y1e_col (t : Fin 4) (r : Fin 1024) (k : Fin 64) :
    y1e (rows B t) (m1e X W1p) r (col128 k) = agg1 X B W1 (blockEquiv (t, r)) k := by
  unfold y1e agg1 rows
  exact Finset.sum_congr rfl fun q _ => by rw [m1e_col X W1 W1p h1]

theorem y1e_one (t : Fin 4) (r : Fin 1024) :
    y1e (rows B t) (m1e X W1p) r one128 = rowSum B (blockEquiv (t, r)) := by
  unfold y1e rowSum rows
  exact Finset.sum_congr rfl fun q _ => by rw [m1e_one, mul_one]

include h1 in
theorem x1b_eq (t : Fin 4) (r : Fin 1024) (k : Fin 64) :
    x1b (rows B t) (m1e X W1p) r k = edge X B W1 (blockEquiv (t, r)) k := by
  unfold x1b edge
  rw [y1e_col X B W1 W1p h1, y1e_one]

include h1 h2 in
theorem m2e_col (t : Fin 4) (r : Fin 1024) (j : Fin 64) :
    m2e (rows B t) (m1e X W1p) W2p r (col72 j) = msg2 X B W1 W2 (blockEquiv (t, r)) j := by
  unfold m2e msg2
  rw [if_neg (by have := j.isLt; show ¬j.val = 64; omega)]
  exact Finset.sum_congr rfl fun k _ => by rw [x1b_eq X B W1 W1p h1, h2]

theorem m2e_one (t : Fin 4) (r : Fin 1024) : m2e (rows B t) (m1e X W1p) W2p r one72 = 1 := if_pos rfl

/-- The four blocks' contributions, added up in block order. -/
def total (j : Fin 72) (f : Fin 4096) : EReal :=
  contrib (rows B 0) (m1e X W1p) W2p j f + contrib (rows B 1) (m1e X W1p) W2p j f
    + contrib (rows B 2) (m1e X W1p) W2p j f + contrib (rows B 3) (m1e X W1p) W2p j f

include h1 h2 in
theorem total_col (f : Fin 4096) (j : Fin 64) : total X B W1p W2p (col72 j) f = agg2 X B W1 W2 f j := by
  unfold total agg2
  rw [sum_blocks, Fin.sum_univ_four]
  unfold contrib
  simp only [m2e_col X B W1 W2 W1p W2p h1 h2]
  rfl

theorem total_one (f : Fin 4096) : total X B W1p W2p one72 f = colSum B f := by
  unfold total colSum
  rw [sum_blocks, Fin.sum_univ_four]
  unfold contrib
  simp only [m2e_one, one_mul]
  rfl

include h1 h2 in
/-- What the kernel leaves at face `f`, feature `j`, is the layer's result there. -/
theorem kernel_face (f : Fin 4096) (j : Fin 64) :
    Ideal.logistic (total X B W1p W2p (col72 j) f * Ideal.div 1 (total X B W1p W2p one72 f)) = face X B W1 W2 f j := by
  unfold face
  rw [total_col X B W1 W2 W1p W2p h1 h2, total_one]

end Agree

/-! ## The result array -/

/-- The layer's result as an array over the face-by-feature index set, from the four argument arrays. -/
def faceArr (x0 : (⟨2, ![4096, 128]⟩ : Shape).Idx → EReal) (x1 : (⟨2, ![4096, 4096]⟩ : Shape).Idx → EReal)
    (x2 : (⟨2, ![128, 64]⟩ : Shape).Idx → EReal) (x3 : (⟨2, ![64, 64]⟩ : Shape).Idx → EReal) :
    (⟨2, ![4096, 64]⟩ : Shape).Idx → EReal :=
  fun i => face (mat x0) (mat x1) (mat x2) (mat x3) (i 0) (i 1)

theorem faceArr_apply (x0 : (⟨2, ![4096, 128]⟩ : Shape).Idx → EReal) (x1 : (⟨2, ![4096, 4096]⟩ : Shape).Idx → EReal)
    (x2 : (⟨2, ![128, 64]⟩ : Shape).Idx → EReal) (x3 : (⟨2, ![64, 64]⟩ : Shape).Idx → EReal) (f : Fin 4096) (j : Fin 64) :
    faceArr x0 x1 x2 x3 (ValueIdx.ix2 f j) = face (mat x0) (mat x1) (mat x2) (mat x3) f j := rfl

end Cert.Spec

end
-- ==== Proof.Blocks.lean ====
import proofs.«105366_g4337916969171_cont_sun_c4_63_14_alg».proof.Proof.Gen.KernelIdeal.Frame
import Idealize.ShloMosaic.Lib.Pipeline.Value
import Idealize.ShloMosaic.Lib.Tactic
import proofs.«105366_g4337916969171_cont_sun_c4_63_14_alg».proof.Proof.Spec
import Idealize.ShloMosaic.Lib.ValueIdx
import Idealize.ShloMosaic.Lib.KernelVsHost
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]

open Idealize.ShloMosaic.ValueIdx

variable (m : (ℓ : Loc nD τ sig) → Buf (Elt F) ℓ)

/-! The arrays the region finds, and the blocks its windows stage at each grid point: the features and the two
padded weights whole at every point, the incidence matrix in four blocks of 1024 rows. -/

/-- A grid point as a block number. -/
def blockOf (t : Fin cfg0.N) : Fin 4 := ⟨t.val, lt_of_lt_of_eq t.isLt N_0⟩

/-- The block indices of the four input windows, at every grid point. -/
theorem idx_w0 : ∀ t : Fin cfg0.N, win0_0.index t (0 : Fin 2) = 0 ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = t.val ∧ win0_3.index t (1 : Fin 2) = 0 :=
  (by decide +kernel : ∀ t : Fin grid0.N, _)

/-- The feature window's block is the whole feature array. -/
theorem xblk_apply (c : Dev nD) (t : Fin cfg0.N) (q : Fin 4096) (p : Fin 128) :
    (iblk m c 0 t : Vec F S4096x128 .f32) (ix2 q p) = (V m c main_arg0 : Vec F S4096x128 .f32) (ix2 q p) := by
  unfold iblk
  rw [View.read_apply]
  show V m c main_arg0 _ = V m c main_arg0 _
  refine congrArg (V m c main_arg0) (funext fun a => Fin.ext ?_)
  match a with
  | ⟨0, _⟩ => show win0_0.index t 0 * 4096 + 1 * q.val = q.val; rw [(idx_w0 t).1]; omega
  | ⟨1, _⟩ => show win0_0.index t 1 * 128 + 1 * p.val = p.val; rw [(idx_w0 t).2]; omega

/-- The first padded weight's block is the whole padded array. -/
theorem w1blk_apply (c : Dev nD) (t : Fin cfg0.N) (p : Fin 128) (k : Fin 128) :
    (iblk m c 1 t : Vec F S128x128 .f32) (ix2 p k) = (V m c main_v0 : Vec F S128x128 .f32) (ix2 p k) := by
  unfold iblk
  rw [View.read_apply]
  show V m c main_v0 _ = V m c main_v0 _
  refine congrArg (V m c main_v0) (funext fun a => Fin.ext ?_)
  match a with
  | ⟨0, _⟩ => show win0_1.index t 0 * 128 + 1 * p.val = p.val; rw [(idx_w1 t).1]; omega
  | ⟨1, _⟩ => show win0_1.index t 1 * 128 + 1 * k.val = k.val; rw [(idx_w1 t).2]; omega

/-- The second padded weight's block is the whole padded array. -/
theorem w2blk_apply (c : Dev nD) (t : Fin cfg0.N) (k : Fin 64) (j : Fin 72) :
    (iblk m c 2 t : Vec F S64x72 .f32) (ix2 k j) = (V m c main_v1 : Vec F S64x72 .f32) (ix2 k j) := by
  unfold iblk
  rw [View.read_apply]
  show V m c main_v1 _ = V m c main_v1 _
  refine congrArg (V m c main_v1) (funext fun a => Fin.ext ?_)
  match a with
  | ⟨0, _⟩ => show win0_2.index t 0 * 64 + 1 * k.val = k.val; rw [(idx_w2 t).1]; omega
  | ⟨1, _⟩ => show win0_2.index t 1 * 72 + 1 * j.val = j.val; rw [(idx_w2 t).2]; omega

/-- The incidence window's block at point `t` is rows `1024·t` to `1024·t + 1023` of the incidence matrix. -/
theorem bblk_apply (c : Dev nD) (t : Fin cfg0.N) (r : Fin 1024) (q : Fin 4096) :
    (iblk m c 3 t : Vec F S1024x4096 .f32) (ix2 r q)
      = (V m c main_arg1 : Vec F S4096x4096 .f32) (ix2 (Cert.Spec.blockEquiv (blockOf t, r)) q) := by
  unfold iblk
  rw [View.read_apply]
  show V m c main_arg1 _ = V m c main_arg1 _
  refine congrArg (V m c main_arg1) (funext fun a => Fin.ext ?_)
  match a with
  | ⟨0, _⟩ => show win0_3.index t 0 * 1024 + 1 * r.val = 1024 * t.val + r.val; rw [(idx_w3 t).1]; omega
  | ⟨1, _⟩ => show win0_3.index t 1 * 4096 + 1 * q.val = q.val; rw [(idx_w3 t).2]; omega

/-- The first padded weight is the first weight with zero columns appended: below column 64 it is the weight. -/
theorem w1p_apply (c : Dev nD) (p : Fin 128) (k : Fin 64) :
    (V m c main_v0 : Vec F S128x128 .f32) (ix2 p (Cert.Spec.col128 k))
      = (m ((c : Thread nD τ).loc main_arg2) : Vec F S128x64 .f32) (ix2 p k) := by
  have e : (V m c main_v0 : S128x128.Idx → Elt F .f32)
      = pad S128x128 ![0, 0] ![0, 64] ![0, 0] (m ((c : Thread nD τ).loc main_arg2))
          (sitofp .f32 (constantI S_ 32 0#32) : S_.Idx → Elt F .f32) pads_S128x64_S128x128_000_0640 h_S_ := by
    dsimp only [V]
    simp only [hostOps0, hostOps0_1, hostOps0_2, hostOps0_3, List.flatten_cons, List.flatten_nil, List.append_nil,
      List.cons_append, List.nil_append]
    after_results
    rfl
  rw [e]
  exact pad_apply_of_inside _ _ _ _ _ _ _ _ _ fun a => by
    match a with
    | ⟨0, _⟩ => show p.val = 0 + p.val * (0 + 1); omega
    | ⟨1, _⟩ => show k.val = 0 + k.val * (0 + 1); omega

/-- Likewise the second padded weight. -/
theorem w2p_apply (c : Dev nD) (k : Fin 64) (j : Fin 64) :
    (V m c main_v1 : Vec F S64x72 .f32) (ix2 k (Cert.Spec.col72 j))
      = (m ((c : Thread nD τ).loc main_arg3) : Vec F S64x64 .f32) (ix2 k j) := by
  have e : (V m c main_v1 : S64x72.Idx → Elt F .f32)
      = pad S64x72 ![0, 0] ![0, 8] ![0, 0] (m ((c : Thread nD τ).loc main_arg3))
          (sitofp .f32 (constantI S_ 32 0#32) : S_.Idx → Elt F .f32) pads_S64x64_S64x72_000_080 h_S_ := by
    dsimp only [V]
    simp only [hostOps0, hostOps0_1, hostOps0_2, hostOps0_3, List.flatten_cons, List.flatten_nil, List.append_nil,
      List.cons_append, List.nil_append]
    after_results
    rfl
  rw [e]
  exact pad_apply_of_inside _ _ _ _ _ _ _ _ _ fun a => by
    match a with
    | ⟨0, _⟩ => show k.val = 0 + k.val * (0 + 1); omega
    | ⟨1, _⟩ => show j.val = 0 + j.val * (0 + 1); omega

end Cert.KernelIdeal.Blocks
end
-- ==== Proof.Pieces.lean ====
import proofs.«105366_g4337916969171_cont_sun_c4_63_14_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-! What each control case of the body leaves in the two scratch buffers and in the output's staging buffer, as
the payload terms of its stores: the first grid point fills the padded first message and starts the face sums,
the later points add their block's contribution, and the last point also normalises and transposes. -/

theorem hz : (![0, 0] : Fin 2 → Nat) = fun _ => 0 := funext fun a => by fin_cases a <;> rfl

/-- First point: the message scratch is left holding the padded first message with its column of ones. -/
theorem sA0 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S1024x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : cond0_0 i) (hc1 : cond0_1 i) (hc2 : ¬cond0_2 i) (hc3 : ¬cond0_3 i)
    (x0 : Vec F S4096x128 .f32) (x1 : Vec F S128x128 .f32) (x2 : Vec F S64x72 .f32) (x3 : Vec F S1024x4096 .f32) :
    sout0_A_0 c i arg1 harg1 arg2 harg2 arg3 harg3 arg4 harg4 arg5 harg5 arg6 harg6 arg7 harg7 hc0 hc1 hc2 hc3 x0 x1 x2 x3 = k0_pay1 x0 x1 := by
  unfold sout0_A_0
  rw [View.read_writes_eq_canon _ _ _ (scover0_A_0 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero hz]
  simp only [View.readAt_eq_ld, harg1.read_unread, harg2.read_unread, View.ld_unit_zero (S := S4096x128) hz,
    View.ld_unit_zero (S := S128x128) hz]

/-- First point: the accumulator is left holding the first block's contribution, computed from the message
    scratch just written. -/
theorem sA1 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S1024x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : cond0_0 i) (hc1 : cond0_1 i) (hc2 : ¬cond0_2 i) (hc3 : ¬cond0_3 i)
    (x0 : Vec F S4096x128 .f32) (x1 : Vec F S128x128 .f32) (x2 : Vec F S64x72 .f32) (x3 : Vec F S1024x4096 .f32) :
    sout0_A_1 c i arg1 harg1 arg2 harg2 arg3 harg3 arg4 harg4 arg5 harg5 arg6 harg6 arg7 harg7 hc0 hc1 hc2 hc3 x0 x1 x2 x3 = k0_pay3 x3 (k0_pay1 x0 x1) x2 := by
  unfold sout0_A_1
  rw [View.read_writes_eq_canon _ _ _ (scover0_A_1 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero (S := S72x4096) hz]
  simp only [View.readAt_eq_ld, harg1.read_unread, harg2.read_unread, harg3.read_unread, harg4.read_unread,
    View.ld_unit_zero (S := S4096x128) hz, View.ld_unit_zero (S := S128x128) hz, View.ld_unit_zero (S := S64x72) hz,
    View.ld_unit_zero (S := S1024x4096) hz, View.readCov_unit_zero (S := S4096x128) _ hz]

/-- A middle point adds its block's contribution to what the accumulator held. -/
theorem sB1 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S1024x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : ¬cond0_0 i) (hc1 : ¬cond0_1 i) (hc2 : cond0_2 i) (hc3 : ¬cond0_3 i)
    (x0 : Vec F S4096x128 .f32) (x1 : Vec F S128x128 .f32) (x2 : Vec F S64x72 .f32) (x3 : Vec F S1024x4096 .f32) (xs0 : Vec F S4096x128 .bf16) (xs1 : Vec F S72x4096 .f32) :
    sout0_B_1 c i arg1 harg1 arg2 harg2 arg3 harg3 arg4 harg4 arg5 harg5 arg6 harg6 arg7 harg7 hc0 hc1 hc2 hc3 x0 x1 x2 x3 xs0 xs1 = k0_pay4 x3 xs0 x2 xs1 := by
  unfold sout0_B_1
  rw [View.read_writes_eq_canon _ _ _ (scover0_B_1 c i arg1 harg1 arg2 harg2 arg3 harg3 arg4 harg4 arg5 harg5 arg6 harg6 arg7 harg7 hc0 hc1 hc2 hc3 x0 x1 x2 x3 xs0 xs1)]
  unfold kernelRun0_B
  dsimp only
  sl_unfold_words
  rw [View.canon_unit_zero (S := S72x4096) hz]
  simp only [View.readAt_eq_ld, harg3.read_unread, harg4.read_unread, harg6.read_unread, harg7.read_unread,
    View.ld_unit_zero (S := S4096x128) hz, View.ld_unit_zero (S := S64x72) hz,
    View.ld_unit_zero (S := S1024x4096) hz, View.ld_unit_zero (S := S72x4096) hz]

/-- So does the last point. -/
theorem sC1 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S1024x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : ¬cond0_0 i) (hc1 : ¬cond0_1 i) (hc2 : cond0_2 i) (hc3 : cond0_3 i)
    (x0 : Vec F S4096x128 .f32) (x1 : Vec F S128x128 .f32) (x2 : Vec F S64x72 .f32) (x3 : Vec F S1024x4096 .f32) (xs0 : Vec F S4096x128 .bf16) (xs1 : Vec F S72x4096 .f32) :
    sout0_C_1 c i arg1 harg1 arg2 harg2 arg3 harg3 arg4 harg4 arg5 harg5 arg6 harg6 arg7 harg7 hc0 hc1 hc2 hc3 x0 x1 x2 x3 xs0 xs1 = k0_pay4 x3 xs0 x2 xs1 := by
  unfold sout0_C_1
  rw [View.read_writes_eq_canon _ _ _ (scover0_C_1 c i arg1 harg1 arg2 harg2 arg3 harg3 arg4 harg4 arg5 harg5 arg6 harg6 arg7 harg7 hc0 hc1 hc2 hc3 x0 x1 x2 x3 xs0 xs1)]
  unfold kernelRun0_C
  dsimp only
  sl_unfold_words
  rw [View.canon_unit_zero (S := S72x4096) hz]
  simp only [View.readAt_eq_ld, harg3.read_unread, harg4.read_unread, harg6.read_unread, harg7.read_unread,
    View.ld_unit_zero (S := S4096x128) hz, View.ld_unit_zero (S := S64x72) hz,
    View.ld_unit_zero (S := S1024x4096) hz, View.ld_unit_zero (S := S72x4096) hz]

/-- The last point then reads rows 0 to 63 and row 64 of the finished accumulator and leaves the normalised,
    transposed result in the output's staging buffer. -/
theorem oC4 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S64x72 .f32) (harg3 : arg3.IsWhole) (arg4 : Memref sig .tc .vmem S1024x4096 .f32) (harg4 : arg4.IsWhole) (arg5 : Memref sig .tc .vmem S4096x64 .f32) (harg5 : arg5.IsWhole) (arg6 : Memref sig .tc .vmem S4096x128 .bf16) (harg6 : arg6.IsWhole) (arg7 : Memref sig .tc .vmem S72x4096 .f32) (harg7 : arg7.IsWhole) (hc0 : ¬cond0_0 i) (hc1 : ¬cond0_1 i) (hc2 : cond0_2 i) (hc3 : cond0_3 i)
    (x0 : Vec F S4096x128 .f32) (x1 : Vec F S128x128 .f32) (x2 : Vec F S64x72 .f32) (x3 : Vec F S1024x4096 .f32) (xs0 : Vec F S4096x128 .bf16) (xs1 : Vec F S72x4096 .f32) :
    out0_C_4 c i arg1 harg1 arg2 harg2 arg3 harg3 arg4 harg4 arg5 harg5 arg6 harg6 arg7 harg7 hc0 hc1 hc2 hc3 x0 x1 x2 x3 xs0 xs1
      = k0_pay5 (View.ld (k0_pay4 x3 xs0 x2 xs1) (Rect.unit (s := S72x4096) ![0, 0] S64x4096.size inb_S72x4096_S64x4096_0_0))
          (View.ld (k0_pay4 x3 xs0 x2 xs1) (Rect.unit (s := S72x4096) ![64, 0] S1x4096.size inb_S72x4096_S1x4096_64_0)) := by
  unfold out0_C_4
  rw [View.read_writes_eq_canon _ _ _ (cover0_C_4 c i arg1 harg1 arg2 harg2 arg3 harg3 arg4 harg4 arg5 harg5 arg6 harg6 arg7 harg7 hc0 hc1 hc2 hc3 x0 x1 x2 x3 xs0 xs1)]
  unfold kernelRun0_C
  dsimp only
  sl_unfold_words
  rw [View.canon_unit_zero (S := S4096x64) hz, View.readCov_eq_canon', View.readCov_eq_canon',
    View.canon_unit_zero (S := S72x4096) hz]
  simp only [View.readAt_eq_ld, harg3.read_unread, harg4.read_unread, harg6.read_unread, harg7.read_unread,
    View.ld_unit_zero (S := S4096x128) hz, View.ld_unit_zero (S := S64x72) hz,
    View.ld_unit_zero (S := S1024x4096) hz, View.ld_unit_zero (S := S72x4096) hz]

end Cert.KernelIdeal.Pieces
end
-- ==== Proof.Invariant.lean ====
import proofs.«105366_g4337916969171_cont_sun_c4_63_14_alg».proof.Proof.Gen.KernelIdeal.Frame
import Idealize.ShloMosaic.Lib.Pipeline.Value
import Idealize.ShloMosaic.Lib.Tactic
import proofs.«105366_g4337916969171_cont_sun_c4_63_14_alg».proof.Proof.Pieces

noncomputable section

open Idealize.ShloMosaic Idealize.ShloMosaic.TcCoe Idealize.SL.Sem
open Idealize.ShloMosaic.Pipeline (Dat)

namespace Cert.KernelIdeal.Invariant

open Cert.KernelIdeal Cert.KernelIdeal.Gen

variable {F : FTy → Type} [FloatOps F]

open Cert.KernelIdeal.Pieces

variable (m : (ℓ : Loc nD τ sig) → Buf (Elt F) ℓ)

/-! What the two scratch buffers hold after each grid point, and what the last point leaves for the output:
the message scratch is filled once and kept; the accumulator starts at the first block's contribution and grows
by one block's contribution per point; the last point turns the finished accumulator into the result. -/

/-- The blocks the windows stage at a point, at their literal types. -/
abbrev xblk (c : Dev nD) (t : Fin cfg0.N) : Vec F S4096x128 .f32 := iblk m c 0 t
abbrev w1blk (c : Dev nD) (t : Fin cfg0.N) : Vec F S128x128 .f32 := iblk m c 1 t
abbrev w2blk (c : Dev nD) (t : Fin cfg0.N) : Vec F S64x72 .f32 := iblk m c 2 t
abbrev bblk (c : Dev nD) (t : Fin cfg0.N) : Vec F S1024x4096 .f32 := iblk m c 3 t

/-- The message scratch, as the first point leaves it. -/
def msgS (c : Dev nD) : Vec F S4096x128 .bf16 := k0_pay1 (xblk m c t0_0) (w1blk m c t0_0)

/-- The accumulator after point `n`. -/
def accS (c : Dev nD) : (n : ℕ) → n < cfg0.N → Vec F S72x4096 .f32
  | 0, h => k0_pay3 (bblk m c ⟨0, h⟩) (msgS m c) (w2blk m c ⟨0, h⟩)
  | n + 1, h => k0_pay4 (bblk m c ⟨n + 1, h⟩) (msgS m c) (w2blk m c ⟨n + 1, h⟩) (accS c n (Nat.lt_of_succ_lt h))

/-- After every point the message scratch holds the padded first message and the accumulator the sum of the
    contributions of the blocks so far: by induction on the point. -/
theorem scratch_eq (c : Dev nD) : ∀ (n : ℕ) (h : n < cfg0.N),
    (outsAt0 m c n h).2.1 = msgS m c ∧ (outsAt0 m c n h).2.2 = accS m c n h
  | 0, h => by
    rw [outsAt0_A m c ⟨0, h⟩ rfl rfl (by dsimp only; omega) (by dsimp only; omega)]
    dsimp only
    exact ⟨sA0 .., sA1 ..⟩
  | n + 1, h => by
    have hN : cfg0.N = 4 := N_0
    have ih := scratch_eq c n (Nat.lt_of_succ_lt h)
    have h0 : ¬(⟨n + 1, h⟩ : Fin cfg0.N).val % 4 = 0 := by dsimp only; omega
    have h2 : 1 ≤ (⟨n + 1, h⟩ : Fin cfg0.N).val := by dsimp only; omega
    by_cases h3 : (⟨n + 1, h⟩ : Fin cfg0.N).val % 4 = 3
    · rw [outsAt0_C m c ⟨n + 1, h⟩ h0 h0 h2 h3]
      dsimp only
      refine ⟨ih.1, ?_⟩
      rw [sC1]
      show k0_pay4 _ (outsAt0 m c n _).2.1 _ (outsAt0 m c n _).2.2 = k0_pay4 _ _ _ _
      rw [ih.1, ih.2]
    · rw [outsAt0_B m c ⟨n + 1, h⟩ h0 h0 h2 h3]
      dsimp only
      refine ⟨ih.1, ?_⟩
      rw [sB1]
      show k0_pay4 _ (outsAt0 m c n _).2.1 _ (outsAt0 m c n _).2.2 = k0_pay4 _ _ _ _
      rw [ih.1, ih.2]

/-- The last point leaves, in the output's staging buffer, the epilogue of the finished accumulator: its rows 0 to 63
    and its row 64. -/
theorem out_last (c : Dev nD) (h : 3 < cfg0.N) :
    (outsAt0 m c 3 h).1
      = k0_pay5 (View.ld (accS m c 3 h) (Rect.unit (s := S72x4096) ![0, 0] S64x4096.size inb_S72x4096_S64x4096_0_0))
          (View.ld (accS m c 3 h) (Rect.unit (s := S72x4096) ![64, 0] S1x4096.size inb_S72x4096_S1x4096_64_0)) := by
  have ih := scratch_eq m c 2 (Nat.lt_of_succ_lt h)
  rw [outsAt0_C m c ⟨3, h⟩ (by dsimp only; omega) (by dsimp only; omega) (by dsimp only; omega) rfl]
  dsimp only
  rw [oC4, ih.1, ih.2]
  rfl

end Cert.KernelIdeal.Invariant
end
-- ==== Proof.Payloads.lean ====
import proofs.«105366_g4337916969171_cont_sun_c4_63_14_alg».proof.Proof.Gen.KernelIdeal.Skeleton
import proofs.«105366_g4337916969171_cont_sun_c4_63_14_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payloads

open Cert.KernelIdeal Cert.KernelIdeal.Gen

/-- The word of the constant one denotes the extended real one. -/
theorem ofBits_one_f32 : Ideal.ofBits .f32 0x3F800000#32 = 1 :=
  IdealRules.sign_bit.ideal_onePat .f32

/-- A select on "the 32-bit word of a coordinate is 64" is the choice on the coordinate itself. -/
theorem select_eq64 {α : Type} (n : Nat) (hn : n < 4294967296) (A B : α) :
    Scalar.select (IntOp.cmpi .eq (BitVec.ofNat 32 n) 64#32) A B = if n = 64 then A else B := by
  have key : IntOp.cmpi .eq (BitVec.ofNat 32 n) 64#32 = if n = 64 then 1#1 else 0#1 := by
    show BitVec.ofBool (BitVec.ofNat 32 n == 64#32) = _
    by_cases h : n = 64
    · subst h
      rfl
    · rw [if_neg h]
      have hne : BitVec.ofNat 32 n ≠ 64#32 := by
        intro he
        have h2 := congrArg BitVec.toNat he
        simp only [BitVec.toNat_ofNat] at h2
        omega
      rw [beq_eq_false_iff_ne.mpr hne]
      rfl
  rw [key]
  by_cases h : n = 64
  · rw [if_pos h, if_pos h]
    exact select_one _ _
  · rw [if_neg h, if_neg h]
    exact select_zero _ _

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first product: the features times the padded first weights -/

theorem lhs1_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs1_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs1_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs1_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product into the zero accumulator, entry by entry: the sum over the 128 shared coordinates. -/
theorem mm1_apply (a : FVec Ideal S4096x128 .f32) (b : FVec Ideal S128x128 .f32) (r : Fin 4096) (c : Fin 128) :
    matmul dot_S4096x128_S128x128_S4096x128_1_0_0_1_n_n none a b (constant (F := Ideal) S4096x128 .f32 0x00000000#32) (ix2 r c)
      = ∑ p : Fin 128, a (ix2 r p) * b (ix2 p c) := by
  refine (Ideal.matmul_constant_zero_apply dot_S4096x128_S128x128_S4096x128_1_0_0_1_n_n none a b (ix2 r c)).trans ?_
  rw [← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r c) ((ValueIdx.contrEquiv1 dot_S4096x128_S128x128_S4096x128_1_0_0_1_n_n 128 rfl rfl).symm k) = ix2 r k := funext fun a => Fin.ext (by
    match a with
    | ⟨0, _⟩ => exact lhs1_0 _ _
    | ⟨1, _⟩ => exact (lhs1_1 _ _).trans hk)
  have er : dot_S4096x128_S128x128_S4096x128_1_0_0_1_n_n.rhsIdx (ix2 r c) ((ValueIdx.contrEquiv1 dot_S4096x128_S128x128_S4096x128_1_0_0_1_n_n 128 rfl rfl).symm k) = ix2 k c := funext fun a => Fin.ext (by
    match a with
    | ⟨0, _⟩ => exact (rhs1_0 _ _).trans hk
    | ⟨1, _⟩ => exact rhs1_1 _ _)
  rw [el, er]

/-- The padded first message with its column of ones, entry by entry. -/
theorem pay1_apply (x0 : FVec Ideal S4096x128 .f32) (x1 : FVec Ideal S128x128 .f32) (q : Fin 4096) (c : Fin 128) :
    k0_pay1 (F := Ideal) x0 x1 (ix2 q c) = Cert.Spec.m1e (Cert.Spec.mat x0) (Cert.Spec.mat x1) q c := by
  unfold k0_pay1
  simp only [shapeCast_self]
  show Scalar.select (IntOp.cmpi .eq (iota .tc S4096x128 32 [1] iota_S4096x128_d1_w32 (ix2 q c)) 64#32)
      (Ideal.ofBits .f32 0x3F800000#32)
      (matmul dot_S4096x128_S128x128_S4096x128_1_0_0_1_n_n none x0 x1 (constant (F := Ideal) S4096x128 .f32 0x00000000#32) (ix2 q c)) = _
  rw [iota_single_apply, mm1_apply, ofBits_one_f32]
  exact select_eq64 c.val (by have := c.isLt; omega) _ _

/-! ## The second product: a block of incidence rows times the padded first message -/

theorem lhs2_0 (i : S1024x128.Idx) (q : dot_S1024x4096_S4096x128_S1024x128_1_0_0_1_n_n.contr.Idx) :
    (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
theorem lhs2_1 (i : S1024x128.Idx) (q : dot_S1024x4096_S4096x128_S1024x128_1_0_0_1_n_n.contr.Idx) :
    (dot_S1024x4096_S4096x128_S1024x128_1_0_0_1_n_n.lhsIdx i q 1).val = (q ⟨0, by decide⟩).val :=
  dot_S1024x4096_S4096x128_S1024x128_1_0_0_1_n_n.lhsIdx_val_of_single rfl i q
theorem rhs2_0 (i : S1024x128.Idx) (q : dot_S1024x4096_S4096x128_S1024x128_1_0_0_1_n_n.contr.Idx) :
    (dot_S1024x4096_S4096x128_S1024x128_1_0_0_1_n_n.rhsIdx i q 0).val = (q ⟨0, by decide⟩).val :=
  dot_S1024x4096_S4096x128_S1024x128_1_0_0_1_n_n.rhsIdx_val_of_single rfl i q
theorem rhs2_1 (i : S1024x128.Idx) (q : dot_S1024x4096_S4096x128_S1024x128_1_0_0_1_n_n.contr.Idx) :
    (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

/-- The product into the zero accumulator, entry by entry: the sum over the 4096 faces. -/
theorem mm2_apply (a : FVec Ideal S1024x4096 .bf16) (b : FVec Ideal S4096x128 .bf16) (r : Fin 1024) (c : Fin 128) :
    matmul dot_S1024x4096_S4096x128_S1024x128_1_0_0_1_n_n none a b (constant (F := Ideal) S1024x128 .f32 0x00000000#32) (ix2 r c)
      = ∑ q : Fin 4096, a (ix2 r q) * b (ix2 q c) := by
  refine (Ideal.matmul_constant_zero_apply dot_S1024x4096_S4096x128_S1024x128_1_0_0_1_n_n none a b (ix2 r c)).trans ?_
  rw [← Equiv.sum_comp (ValueIdx.contrEquiv1 dot_S1024x4096_S4096x128_S1024x128_1_0_0_1_n_n 4096 rfl rfl).symm]
  refine Finset.sum_congr rfl fun k _ => ?_
  have hk := ValueIdx.contrEquiv1_symm_val dot_S1024x4096_S4096x128_S1024x128_1_0_0_1_n_n 4096 rfl rfl k
  have el : dot_S1024x4096_S4096x128_S1024x128_1_0_0_1_n_n.lhsIdx (ix2 r c) ((ValueIdx.contrEquiv1 dot_S1024x4096_S4096x128_S1024x128_1_0_0_1_n_n 4096 rfl rfl).symm k) = ix2 r k := funext fun a => Fin.ext (by
    match a with
    | ⟨0, _⟩ => exact lhs2_0 _ _
    | ⟨1, _⟩ => exact (lhs2_1 _ _).trans hk)
  have er : dot_S1024x4096_S4096x128_S1024x128_1_0_0_1_n_n.rhsIdx (ix2 r c) ((ValueIdx.contrEquiv1 dot_S1024x4096_S4096x128_S1024x128_1_0_0_1_n_n 4096 rfl rfl).symm k) = ix2 k c := funext fun a => Fin.ext (by
    match a with
    | ⟨0, _⟩ => exact (rhs2_0 _ _).trans hk
    | ⟨1, _⟩ => exact rhs2_1 _ _)
  rw [el, er]

/-! ## The third product: the block's edge features times the padded second weights -/

theorem lhs3_0 (i : S1024x72.Idx) (q : dot_S1024x64_S64x72_S1024x72_1_0_0_1_n_n.contr.Idx) :
    (dot_S1024x64_S64x72_S1024x72_1_0_0_1_n_n.lhsIdx i q 0).val = (i 0).val := by
  unfold DotDims.lhsIdx
  rw [dif_neg (show ¬(0 : Fin S1024x64.rank) ∈ dot_S1024x64_S64x72_S1024x72_1_0_0_1_n_n.lhsBatch by decide), dif_pos (show (0 : Fin S1024x64.rank) ∈ dot_S1024x64_S64x72_S1024x72_1_0_0_1_n_n.lhsNonContracting by decide)]
  rfl
theorem lhs3_1 (i : S1024x72.Idx) (q : dot_S1024x64_S64x72_S1024x72_1_0_0_1_n_n.contr.Idx) :
    (dot_S1024x64_S64x72_S1024x72_1_0_0_1_n_n.lhsIdx i q 1).val = (q ⟨0, by decide⟩).val :=
  dot_S1024x64_S64x72_S1024x72_1_0_0_1_n_n.lhsIdx_val_of_single rfl i q
theorem rhs3_0 (i : S1024x72.Idx) (q : dot_S1024x64_S64x72_S1024x72_1_0_0_1_n_n.contr.Idx) :
    (dot_S1024x64_S64x72_S1024x72_1_0_0_1_n_n.rhsIdx i q 0).val = (q ⟨0, by decide⟩).val :=
  dot_S1024x64_S64x72_S1024x72_1_0_0_1_n_n.rhsIdx_val_of_single rfl i q
theorem rhs3_1 (i : S1024x72.Idx) (q : dot_S1024x64_S64x72_S1024x72_1_0_0_1_n_n.contr.Idx) :
    (dot_S1024x64_S64x72_S1024x72_1_0_0_1_n_n.rhsIdx i q 1).val = (i 1).val := by
  unfold DotDims.rhsIdx
  rw [dif_neg (show ¬(1 : Fin S64x72.rank) ∈ dot_S1024x64_S64x72_S1024x72_1_0_0_1_n_n.rhsBatch by decide), dif_pos (show (1 : Fin S64x72.rank) ∈ dot_S1024x64_S64x72_S1024x72_1_0_0_1_n_n.rhsNonContracting by decide)]
  rfl

/-- The product into the zero accumulator, entry by entry: the sum over the 64 edge features. -/
theorem mm3_apply (a : FVec Ideal S1024x64 .f32) (b : FVec Ideal S64x72 .f32) (r : Fin 1024) (c : Fin 72) :
    matmul dot_S1024x64_S64x72_S1024x72_1_0_0_1_n_n none a b (constant (F := Ideal) S1024x72 .f32 0x00000000#32) (ix2 r c)
      = ∑ k : Fin 64, a (ix2 r k) * b (ix2 k c) := by
  refine (Ideal.matmul_constant_zero_apply dot_S1024x64_S64x72_S1024x72_1_0_0_1_n_n none a b (ix2 r c)).trans ?_
  rw [← Equiv.sum_comp (ValueIdx.contrEquiv1 dot_S1024x64_S64x72_S1024x72_1_0_0_1_n_n 64 rfl rfl).symm]
  refine Finset.sum_congr rfl fun k _ => ?_
  have hk := ValueIdx.contrEquiv1_symm_val dot_S1024x64_S64x72_S1024x72_1_0_0_1_n_n 64 rfl rfl k
  have el : dot_S1024x64_S64x72_S1024x72_1_0_0_1_n_n.lhsIdx (ix2 r c) ((ValueIdx.contrEquiv1 dot_S1024x64_S64x72_S1024x72_1_0_0_1_n_n 64 rfl rfl).symm k) = ix2 r k := funext fun a => Fin.ext (by
    match a with
    | ⟨0, _⟩ => exact lhs3_0 _ _
    | ⟨1, _⟩ => exact (lhs3_1 _ _).trans hk)
  have er : dot_S1024x64_S64x72_S1024x72_1_0_0_1_n_n.rhsIdx (ix2 r c) ((ValueIdx.contrEquiv1 dot_S1024x64_S64x72_S1024x72_1_0_0_1_n_n 64 rfl rfl).symm k) = ix2 k c := funext fun a => Fin.ext (by
    match a with
    | ⟨0, _⟩ => exact (rhs3_0 _ _).trans hk
    | ⟨1, _⟩ => exact rhs3_1 _ _)
  rw [el, er]

/-! ## The fourth product: the padded second message, transposed, times the block of incidence rows -/

theorem lhs4_0 (i : S72x4096.Idx) (q : dot_S1024x72_S1024x4096_S72x4096_0_0_1_1_n_n.contr.Idx) :
    (dot_S1024x72_S1024x4096_S72x4096_0_0_1_1_n_n.lhsIdx i q 0).val = (q ⟨0, by decide⟩).val :=
  dot_S1024x72_S1024x4096_S72x4096_0_0_1_1_n_n.lhsIdx_val_of_single rfl i q
theorem lhs4_1 (i : S72x4096.Idx) (q : dot_S1024x72_S1024x4096_S72x4096_0_0_1_1_n_n.contr.Idx) :
    (dot_S1024x72_S1024x4096_S72x4096_0_0_1_1_n_n.lhsIdx i q 1).val = (i 0).val := by
  unfold DotDims.lhsIdx
  rw [dif_neg (show ¬(1 : Fin S1024x72.rank) ∈ dot_S1024x72_S1024x4096_S72x4096_0_0_1_1_n_n.lhsBatch by decide), dif_pos (show (1 : Fin S1024x72.rank) ∈ dot_S1024x72_S1024x4096_S72x4096_0_0_1_1_n_n.lhsNonContracting by decide)]
  rfl
theorem rhs4_0 (i : S72x4096.Idx) (q : dot_S1024x72_S1024x4096_S72x4096_0_0_1_1_n_n.contr.Idx) :
    (dot_S1024x72_S1024x4096_S72x4096_0_0_1_1_n_n.rhsIdx i q 0).val = (q ⟨0, by decide⟩).val :=
  dot_S1024x72_S1024x4096_S72x4096_0_0_1_1_n_n.rhsIdx_val_of_single rfl i q
theorem rhs4_1 (i : S72x4096.Idx) (q : dot_S1024x72_S1024x4096_S72x4096_0_0_1_1_n_n.contr.Idx) :
    (dot_S1024x72_S1024x4096_S72x4096_0_0_1_1_n_n.rhsIdx i q 1).val = (i 1).val := by
  unfold DotDims.rhsIdx
  rw [dif_neg (show ¬(1 : Fin S1024x4096.rank) ∈ dot_S1024x72_S1024x4096_S72x4096_0_0_1_1_n_n.rhsBatch by decide), dif_pos (show (1 : Fin S1024x4096.rank) ∈ dot_S1024x72_S1024x4096_S72x4096_0_0_1_1_n_n.rhsNonContracting by decide)]
  rfl

/-- The product into the zero accumulator, entry by entry: both operands are read along their first axis, the sum over
the block's 1024 edge rows. -/
theorem mm4_apply (a : FVec Ideal S1024x72 .bf16) (b : FVec Ideal S1024x4096 .bf16) (j : Fin 72) (f : Fin 4096) :
    matmul dot_S1024x72_S1024x4096_S72x4096_0_0_1_1_n_n none a b (constant (F := Ideal) S72x4096 .f32 0x00000000#32) (ix2 j f)
      = ∑ r : Fin 1024, a (ix2 r j) * b (ix2 r f) := by
  refine (Ideal.matmul_constant_zero_apply dot_S1024x72_S1024x4096_S72x4096_0_0_1_1_n_n none a b (ix2 j f)).trans ?_
  rw [← Equiv.sum_comp (ValueIdx.contrEquiv1 dot_S1024x72_S1024x4096_S72x4096_0_0_1_1_n_n 1024 rfl rfl).symm]
  refine Finset.sum_congr rfl fun k _ => ?_
  have hk := ValueIdx.contrEquiv1_symm_val dot_S1024x72_S1024x4096_S72x4096_0_0_1_1_n_n 1024 rfl rfl k
  have el : dot_S1024x72_S1024x4096_S72x4096_0_0_1_1_n_n.lhsIdx (ix2 j f) ((ValueIdx.contrEquiv1 dot_S1024x72_S1024x4096_S72x4096_0_0_1_1_n_n 1024 rfl rfl).symm k) = ix2 k j := funext fun a => Fin.ext (by
    match a with
    | ⟨0, _⟩ => exact (lhs4_0 _ _).trans hk
    | ⟨1, _⟩ => exact lhs4_1 _ _)
  have er : dot_S1024x72_S1024x4096_S72x4096_0_0_1_1_n_n.rhsIdx (ix2 j f) ((ValueIdx.contrEquiv1 dot_S1024x72_S1024x4096_S72x4096_0_0_1_1_n_n 1024 rfl rfl).symm k) = ix2 k f := funext fun a => Fin.ext (by
    match a with
    | ⟨0, _⟩ => exact (rhs4_0 _ _).trans hk
    | ⟨1, _⟩ => exact rhs4_1 _ _)
  rw [el, er]

/-- The normalised message through the logistic function: columns below 64 of a 128-column array, each divided by
column 64 of its row. -/
theorem x1_layer (y : FVec Ideal S1024x128 .f32) (r : Fin 1024) (k : Fin 64) :
    logistic (mulf (extractStridedSlice S1024x64 ![0, 0] y slices_S1024x128_o0_0_S1024x64)
        (broadcastTo S1024x64 (divf (broadcast S1024x1 (Scalar.ofBits (F := Ideal) .f32 0x3F800000#32))
          (extractStridedSlice S1024x1 ![0, 64] y slices_S1024x128_o0_64_S1024x1)) broadcasts_S1024x1_S1024x64)) (ix2 r k)
      = Ideal.logistic (y (ix2 r (Cert.Spec.col128 k)) * Ideal.div 1 (y (ix2 r Cert.Spec.one128))) := by
  show Ideal.logistic (extractStridedSlice S1024x64 ![0, 0] y slices_S1024x128_o0_0_S1024x64 (ix2 r k)
      * broadcastTo S1024x64 (divf (broadcast S1024x1 (Scalar.ofBits (F := Ideal) .f32 0x3F800000#32))
          (extractStridedSlice S1024x1 ![0, 64] y slices_S1024x128_o0_64_S1024x1)) broadcasts_S1024x1_S1024x64 (ix2 r k)) = _
  refine congrArg Ideal.logistic (congrArg₂ (· * ·) ?_ ?_)
  · exact slice2_axis1_apply 0 y slices_S1024x128_o0_0_S1024x64 r k (Cert.Spec.col128 k) (Nat.zero_add _).symm
  · refine (broadcastTo_a1_ab_apply _ broadcasts_S1024x1_S1024x64 r k).trans ?_
    show Ideal.div (Ideal.ofBits .f32 0x3F800000#32)
        (extractStridedSlice S1024x1 ![0, 64] y slices_S1024x128_o0_64_S1024x1 (ix2 r (0 : Fin 1))) = _
    rw [ofBits_one_f32]
    exact congrArg (Ideal.div 1) (slice2_axis1_apply 64 y slices_S1024x128_o0_64_S1024x1 r (0 : Fin 1) Cert.Spec.one128 rfl)

/-- The second message padded to 72 columns, column 64 overwritten with ones. -/
theorem m2_layer (x : FVec Ideal S1024x64 .f32) (w : FVec Ideal S64x72 .f32) (r : Fin 1024) (j : Fin 72) :
    select (cmpi .eq (iota .tc S1024x72 32 [1] iota_S1024x72_d1_w32) (broadcast S1024x72 64#32))
        (broadcast S1024x72 (Scalar.ofBits (F := Ideal) .f32 0x3F800000#32))
        (matmul dot_S1024x64_S64x72_S1024x72_1_0_0_1_n_n none x (shapeCast S64x72 w shapeCasts_S64x72_S64x72) (constant (F := Ideal) S1024x72 .f32 0x00000000#32)) (ix2 r j)
      = if j.val = 64 then 1 else ∑ k : Fin 64, x (ix2 r k) * w (ix2 k j) := by
  rw [shapeCast_self]
  show Scalar.select (IntOp.cmpi .eq (iota .tc S1024x72 32 [1] iota_S1024x72_d1_w32 (ix2 r j)) 64#32)
      (Ideal.ofBits .f32 0x3F800000#32)
      (matmul dot_S1024x64_S64x72_S1024x72_1_0_0_1_n_n none x w (constant (F := Ideal) S1024x72 .f32 0x00000000#32) (ix2 r j)) = _
  rw [iota_single_apply, mm3_apply, ofBits_one_f32]
  exact select_eq64 j.val (by have := j.isLt; omega) _ _

/-- One block's contribution to the face sums, entry by entry. -/
theorem pay2_apply (v3 : FVec Ideal S1024x4096 .f32) (v5 : FVec Ideal S4096x128 .bf16) (v14 : FVec Ideal S64x72 .f32)
    (j : Fin 72) (f : Fin 4096) :
    k0_pay2 (F := Ideal) v3 v5 v14 (ix2 j f)
      = Cert.Spec.contrib (Cert.Spec.mat v3) (Cert.Spec.mat v5) (Cert.Spec.mat v14) j f := by
  unfold k0_pay2
  refine (mm4_apply _ _ j f).trans ?_
  unfold Cert.Spec.contrib
  refine Finset.sum_congr rfl fun r _ => ?_
  refine congrArg₂ (· * ·) ?_ rfl
  refine (m2_layer _ _ r j).trans ?_
  unfold Cert.Spec.m2e
  refine congrArg (fun t => if j.val = 64 then (1 : EReal) else t) ?_
  refine Finset.sum_congr rfl fun k _ => ?_
  refine congrArg₂ (· * ·) ?_ rfl
  refine (x1_layer _ r k).trans ?_
  unfold Cert.Spec.x1b
  rw [mm2_apply, mm2_apply]
  rfl

/-- The accumulator's first store is the first block's contribution. -/
theorem pay3_eq {F : FTy → Type} [FloatOps F] (v3 : Vec F S1024x4096 .f32) (v5 : Vec F S4096x128 .bf16) (v14 : Vec F S64x72 .f32) :
    k0_pay3 v3 v5 v14 = k0_pay2 v3 v5 v14 := by
  unfold k0_pay3
  exact shapeCast_self _ _

/-- A later store adds the block's contribution to what the accumulator held. -/
theorem pay4_apply (v3 : FVec Ideal S1024x4096 .f32) (v5 : FVec Ideal S4096x128 .bf16) (v14 : FVec Ideal S64x72 .f32)
    (v33 : FVec Ideal S72x4096 .f32) (i : S72x4096.Idx) :
    k0_pay4 (F := Ideal) v3 v5 v14 v33 i = v33 i + k0_pay2 (F := Ideal) v3 v5 v14 i := by
  unfold k0_pay4
  rw [shapeCast_self]
  rfl

/-- The epilogue: the face sums normalised by the column sums, through the logistic function, transposed. -/
theorem pay5_apply (v33 : FVec Ideal S64x4096 .f32) (v34 : FVec Ideal S1x4096 .f32) (f : Fin 4096) (j : Fin 64) :
    k0_pay5 (F := Ideal) v33 v34 (ix2 f j)
      = Ideal.logistic (v33 (ix2 j f) * Ideal.div 1 (v34 (ix2 (0 : Fin 1) f))) := by
  unfold k0_pay5
  refine (transpose_ix2_apply _ transposes_S64x4096_p1_0_S4096x64 f j).trans ?_
  show Ideal.logistic (v33 (ix2 j f) * broadcastTo S64x4096 _ broadcasts_S1x4096_S64x4096 (ix2 j f)) = _
  rw [broadcastTo_1b_ab_apply _ broadcasts_S1x4096_S64x4096 j f]
  show Ideal.logistic (v33 (ix2 j f) * Ideal.div (Ideal.ofBits .f32 0x3F800000#32) (v34 (ix2 (0 : Fin 1) f))) = _
  rw [ofBits_one_f32]

end Cert.KernelIdeal.Payloads

end
-- ==== Proof.KernelValue.lean ====
import proofs.«105366_g4337916969171_cont_sun_c4_63_14_alg».proof.Proof.Gen.KernelIdeal.Value
import proofs.«105366_g4337916969171_cont_sun_c4_63_14_alg».proof.Proof.Spec
import proofs.«105366_g4337916969171_cont_sun_c4_63_14_alg».proof.Proof.Blocks
import proofs.«105366_g4337916969171_cont_sun_c4_63_14_alg».proof.Proof.Invariant
import proofs.«105366_g4337916969171_cont_sun_c4_63_14_alg».proof.Proof.Payloads
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Blocks Cert.KernelIdeal.Invariant Cert.KernelIdeal.Payloads
open Cert.Spec (mat)

variable (m : (ℓ : Loc nD τ sig) → Buf (Elt Ideal) ℓ) (ρ : Dev nD → PrngReg)

/-! The kernel's result array over the extended reals: the scratch contents and the epilogue read entry by entry,
the blocks read as rows of the arrays, and the four blocks' contributions summed to the layer's face sums. -/

/-- The arrays as the region finds them, at their literal types. -/
abbrev xarr (c : Dev nD) : FVec Ideal S4096x128 .f32 := V m c main_arg0
abbrev barr (c : Dev nD) : FVec Ideal S4096x4096 .f32 := V m c main_arg1
abbrev w1parr (c : Dev nD) : FVec Ideal S128x128 .f32 := V m c main_v0
abbrev w2parr (c : Dev nD) : FVec Ideal S64x72 .f32 := V m c main_v1

theorem mat_xblk (c : Dev nD) (t : Fin cfg0.N) : mat (xblk m c t) = mat (xarr m c) :=
  funext fun q => funext fun p => xblk_apply m c t q p
theorem mat_w1blk (c : Dev nD) (t : Fin cfg0.N) : mat (w1blk m c t) = mat (w1parr m c) :=
  funext fun p => funext fun k => w1blk_apply m c t p k
theorem mat_w2blk (c : Dev nD) (t : Fin cfg0.N) : mat (w2blk m c t) = mat (w2parr m c) :=
  funext fun k => funext fun j => w2blk_apply m c t k j
/-- The incidence block at point `t` is block `t` of the rows of the incidence matrix. -/
theorem mat_bblk (c : Dev nD) (t : Fin cfg0.N) : mat (bblk m c t) = Cert.Spec.rows (mat (barr m c)) (blockOf t) :=
  funext fun r => funext fun q => bblk_apply m c t r q

/-- The message scratch holds the padded first message with its column of ones. -/
theorem mat_msgS (c : Dev nD) : mat (msgS m c) = Cert.Spec.m1e (mat (xarr m c)) (mat (w1parr m c)) := by
  funext q k
  show msgS m c (ix2 q k) = _
  unfold msgS
  rw [pay1_apply, mat_xblk, mat_w1blk]

/-- One point's contribution to the accumulator. -/
theorem pay2_point (c : Dev nD) (t : Fin cfg0.N) (j : Fin 72) (f : Fin 4096) :
    k0_pay2 (F := Ideal) (bblk m c t) (msgS m c) (w2blk m c t) (ix2 j f)
      = Cert.Spec.contrib (Cert.Spec.rows (mat (barr m c)) (blockOf t))
          (Cert.Spec.m1e (mat (xarr m c)) (mat (w1parr m c))) (mat (w2parr m c)) j f := by
  rw [pay2_apply, mat_bblk, mat_msgS, mat_w2blk]

/-- After the last point the accumulator holds the four blocks' contributions, added in block order. -/
theorem accS_three (c : Dev nD) (h : 3 < cfg0.N) (j : Fin 72) (f : Fin 4096) :
    accS m c 3 h (ix2 j f)
      = Cert.Spec.total (mat (xarr m c)) (mat (barr m c)) (mat (w1parr m c)) (mat (w2parr m c)) j f := by
  show k0_pay4 (F := Ideal) (bblk m c ⟨3, _⟩) (msgS m c) (w2blk m c ⟨3, _⟩)
    (k0_pay4 (F := Ideal) (bblk m c ⟨2, _⟩) (msgS m c) (w2blk m c ⟨2, _⟩)
      (k0_pay4 (F := Ideal) (bblk m c ⟨1, _⟩) (msgS m c) (w2blk m c ⟨1, _⟩)
        (k0_pay3 (F := Ideal) (bblk m c ⟨0, _⟩) (msgS m c) (w2blk m c ⟨0, _⟩)))) (ix2 j f) = _
  rw [pay4_apply, pay4_apply, pay4_apply, pay3_eq, pay2_point, pay2_point, pay2_point, pay2_point]
  rfl

/-- What the last point leaves in the output's staging buffer, entry by entry, is the layer's result. -/
theorem out_apply (c : Dev nD) (h : 3 < cfg0.N) (f : Fin 4096) (j : Fin 64) :
    (outsAt0 m c 3 h).1 (ix2 f j)
      = Cert.Spec.face (mat (m ((c : Thread nD τ).loc main_arg0))) (mat (m ((c : Thread nD τ).loc main_arg1)))
          (mat (m ((c : Thread nD τ).loc main_arg2))) (mat (m ((c : Thread nD τ).loc main_arg3))) f j := by
  rw [out_last, pay5_apply]
  have e0 : View.ld (accS m c 3 h) (Rect.unit (s := S72x4096) ![0, 0] S64x4096.size inb_S72x4096_S64x4096_0_0) (ix2 j f)
      = accS m c 3 h (ix2 (Cert.Spec.col72 j) f) :=
    congrArg (accS m c 3 h) (funext fun a => Fin.ext (by
      match a with
      | ⟨0, _⟩ => show 0 + 1 * j.val = j.val; omega
      | ⟨1, _⟩ => show 0 + 1 * f.val = f.val; omega))
  have e1 : View.ld (accS m c 3 h) (Rect.unit (s := S72x4096) ![64, 0] S1x4096.size inb_S72x4096_S1x4096_64_0) (ix2 (0 : Fin 1) f)
      = accS m c 3 h (ix2 Cert.Spec.one72 f) :=
    congrArg (accS m c 3 h) (funext fun a => Fin.ext (by
      match a with
      | ⟨0, _⟩ => show 64 + 1 * 0 = 64; omega
      | ⟨1, _⟩ => show 0 + 1 * f.val = f.val; omega))
  rw [e0, e1, accS_three, accS_three]
  have hx : xarr m c = m ((c : Thread nD τ).loc main_arg0) := V_main_arg0 m c
  have hb : barr m c = m ((c : Thread nD τ).loc main_arg1) := V_main_arg1 m c
  rw [Cert.Spec.kernel_face (mat (xarr m c)) (mat (barr m c)) (mat (m ((c : Thread nD τ).loc main_arg2)))
    (mat (m ((c : Thread nD τ).loc main_arg3))) (mat (w1parr m c)) (mat (w2parr m c))
    (fun p k => w1p_apply m c p k) (fun k j => w2p_apply m c k j) f j, hx, hb]

/-- The layer's result over the four argument arrays as launched. -/
abbrev result (c : Dev nD) : Buf (Elt Ideal) ((c : Thread nD τ).loc main_v2) :=
  Cert.Spec.faceArr (m ((c : Thread nD τ).loc main_arg0)) (m ((c : Thread nD τ).loc main_arg1))
    (m ((c : Thread nD τ).loc main_arg2)) (m ((c : Thread nD τ).loc main_arg3))

/-- The output's staging buffer after the last point is the result array. -/
theorem out_eq (c : Dev nD) (h : 3 < cfg0.N) : (outsAt0 m c 3 h).1 = result m c := by
  funext i
  obtain ⟨f, j, rfl⟩ : ∃ (f : Fin 4096) (j : Fin 64), i = ix2 f j := ⟨i 0, i 1, eq_ix2 i⟩
  rw [out_apply]
  rfl

/-- The one write-back, after the last point, writes the result array: the output's one block is the whole array. -/
theorem flushed_eq (c : Dev nD) (t : Fin cfg0.N) (hf : (cfg0.win 4).flush t = true) :
    (dats m 0 c).flushed 4 t = ((cfg0.win 4).blk t).view.read (Elt Ideal) (result m c) := by
  have hN : cfg0.N = 4 := N_0
  have h3 : t.val = 3 := by have := (flush0_4 t).mp hf; have := t.isLt; omega
  have e : ∀ (n : ℕ) (h : n < cfg0.N), n = 3 → (outsAt0 m c n h).1 = result m c := fun n h hn => by
    subst hn; exact out_eq m c h
  rw [Cert.KernelIdeal.Value.flushed4, e t.val t.isLt h3]
  have hi : ∀ t : Fin cfg0.N, win0_4.index t (0 : Fin 2) = 0 ∧ win0_4.index t (1 : Fin 2) = 0 :=
    (by decide +kernel : ∀ t : Fin grid0.N, _)
  funext y
  rw [View.read_apply]
  show result m c _ = result m c _
  refine congrArg (result m c) (funext fun a => Fin.ext ?_)
  match a with
  | ⟨0, _⟩ =>
    show (y 0).val = win0_4.index t 0 * 4096 + 1 * (y 0).val
    rw [(hi t).1]; omega
  | ⟨1, _⟩ =>
    show (y 1).val = win0_4.index t 1 * 64 + 1 * (y 1).val
    rw [(hi t).2]; omega

/-- So the result array ends holding the layer's result. -/
theorem final_o (c : Dev nD) : (dats m 0 c).arrAt 4 cfg0.N = result m c :=
  (dats m 0 c).arrAt_eq_of_cover 4 (result m c) (flushed_eq m c) fun i =>
    ⟨t0_3, (flush0_4 t0_3).mpr rfl, by
      show i ∈ ((View.whole main_v2).slice (win0_4.rect t0_3)).set
      rw [View.set_slice_whole, Rect.mem_set_unit]
      intro a
      have h0 : (i 0 : Nat) < 4096 := (i 0).isLt
      have h1 : (i 1 : Nat) < 64 := (i 1).isLt
      match a with
      | ⟨0, _⟩ =>
        show win0_4.index t0_3 0 * win0_4.size 0 ≤ (i 0 : Nat)
          ∧ (i 0 : Nat) < win0_4.index t0_3 0 * win0_4.size 0 + win0_4.xsize (grid0.coords t0_3) 0
        rw [show win0_4.index t0_3 0 * win0_4.size 0 = 0 from by decide +kernel,
          show win0_4.xsize (grid0.coords t0_3) 0 = 4096 from by decide +kernel]
        omega
      | ⟨1, _⟩ =>
        show win0_4.index t0_3 1 * win0_4.size 1 ≤ (i 1 : Nat)
          ∧ (i 1 : Nat) < win0_4.index t0_3 1 * win0_4.size 1 + win0_4.xsize (grid0.coords t0_3) 1
        rw [show win0_4.index t0_3 1 * win0_4.size 1 = 0 from by decide +kernel,
          show win0_4.xsize (grid0.coords t0_3) 1 = 64 from by decide +kernel]
        omega⟩

/-- The run, read: the result array at the layer's result of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_o m c), (h c).2⟩)
    (Cert.KernelIdeal.Value.run_blocks m ρ)

end Cert.KernelIdeal.KernelValue

end
-- ==== Proof.RefIsSpec.lean ====
import proofs.«105366_g4337916969171_cont_sun_c4_63_14_alg».proof.Proof.Gen.ReferenceIdeal.Read
import proofs.«105366_g4337916969171_cont_sun_c4_63_14_alg».proof.Proof.Spec
import Idealize.ShloMosaic.PureOps.IdealRules

noncomputable section

open Idealize.ShloMosaic Idealize.ShloMosaic.ValueIdx

namespace Cert.ReferenceIdeal.RefValue

open Cert.ReferenceIdeal Cert.ReferenceIdeal.Read

/-! The reference evaluates the layer stage by stage. Each stage below is read at an index given by its
coordinates and identified with the corresponding quantity of the layer: the first message, the row sums, the
gathered message, the edge features, the second message, the column sums, the second gathered message, and
finally the result. -/

/-- The word `0x3F800000` is the number one. -/
theorem ofBits_one_f32 : Ideal.ofBits .f32 0x3F800000#32 = 1 :=
  IdealRules.sign_bit.ideal_onePat .f32

section
variable (x0 : (⟨S4096x128, .f32⟩ : BufTy).Contents (Elt Ideal)) (x1 : (⟨S4096x4096, .f32⟩ : BufTy).Contents (Elt Ideal))
  (x2 : (⟨S128x64, .f32⟩ : BufTy).Contents (Elt Ideal)) (x3 : (⟨S64x64, .f32⟩ : BufTy).Contents (Elt Ideal))

/-- The first product `X · W1`, entry by entry. -/
theorem v1_eq (q : Fin 4096) (k : Fin 64) :
    val_main_v1 (F := Ideal) x0 x2 (ix2 q k) = Cert.Spec.msg1 (Cert.Spec.mat x0) (Cert.Spec.mat x2) q k := by
  rw [val_main_v1_apply]
  unfold Cert.Spec.msg1
  refine Finset.sum_congr rfl fun p _ => ?_
  have el : lidx_main_v1 (ix2 q k) p = ix2 q p :=
    funext fun a => Fin.ext (by match a with | ⟨0, _⟩ => rfl | ⟨1, _⟩ => rfl)
  have er : ridx_main_v1 (ix2 q k) p = ix2 p k :=
    funext fun a => Fin.ext (by match a with | ⟨0, _⟩ => rfl | ⟨1, _⟩ => rfl)
  rw [el, er]

/-- The row sums of `B`: the sum started from zero. -/
theorem v3_eq (r : Fin 4096) :
    val_main_v3 (F := Ideal) x1 (ix1 r) = Cert.Spec.rowSum (Cert.Spec.mat x1) r := by
  rw [val_main_v3_apply, val_main_cst_apply, Ideal.ofBits_def, Ideal.ofBits_zero_f32, zero_add]
  unfold Cert.Spec.rowSum
  refine Finset.sum_congr rfl fun q _ => ?_
  exact congrArg x1 (funext fun a => Fin.ext (by match a with | ⟨0, _⟩ => rfl | ⟨1, _⟩ => rfl))

/-- The first message gathered on the edges, `B · (X · W1)`. -/
theorem v2_eq (r : Fin 4096) (k : Fin 64) :
    val_main_v2 (F := Ideal) x0 x1 x2 (ix2 r k)
      = Cert.Spec.agg1 (Cert.Spec.mat x0) (Cert.Spec.mat x1) (Cert.Spec.mat x2) r k := by
  rw [val_main_v2_apply]
  unfold Cert.Spec.agg1
  refine Finset.sum_congr rfl fun q _ => ?_
  have el : lidx_main_v2 (ix2 r k) q = ix2 r q :=
    funext fun a => Fin.ext (by match a with | ⟨0, _⟩ => rfl | ⟨1, _⟩ => rfl)
  have er : ridx_main_v2 (ix2 r k) q = ix2 q k :=
    funext fun a => Fin.ext (by match a with | ⟨0, _⟩ => rfl | ⟨1, _⟩ => rfl)
  rw [el, er, v1_eq]

/-- One over the row sum, broadcast along the features. -/
theorem v7_eq (r : Fin 4096) (k : Fin 64) :
    val_main_v7 (F := Ideal) x1 (ix2 r k) = Ideal.div 1 (Cert.Spec.rowSum (Cert.Spec.mat x1) r) := by
  rw [val_main_v7_apply, val_main_v6_apply]
  have ei : idx_main_v6 (idx_main_v7 (ix2 r k)) = ix1 r :=
    funext fun a => Fin.ext (by match a with | ⟨0, _⟩ => rfl)
  rw [ei, val_main_v5_apply, val_main_v4_apply, val_main_cst_0_apply, v3_eq, Ideal.hostDivf_def, Ideal.ofBits_def,
    ofBits_one_f32]

/-- The edge features: the logistic function written out as `1 / (1 + e^(-x))`. -/
theorem v14_eq (r : Fin 4096) (k : Fin 64) :
    val_main_v14 (F := Ideal) x0 x1 x2 (ix2 r k)
      = Cert.Spec.edge (Cert.Spec.mat x0) (Cert.Spec.mat x1) (Cert.Spec.mat x2) r k := by
  rw [val_main_v14_apply, val_main_v13_apply, val_main_cst_2_apply, val_main_v12_apply, val_main_v11_apply,
    val_main_cst_1_apply, val_main_v10_apply, val_main_v9_apply, val_main_v8_apply, v7_eq, v2_eq]
  simp only [Ideal.hostDivf_def, Ideal.ofBits_def, ofBits_one_f32, Ideal.addf_def, Ideal.hostUnary_exp_def,
    Ideal.hostNegf_def, Ideal.negf_def, Ideal.mulf_def]
  unfold Cert.Spec.edge Ideal.logistic
  rw [mul_comm]

/-- The second product `edge · W2`. -/
theorem v15_eq (r : Fin 4096) (j : Fin 64) :
    val_main_v15 (F := Ideal) x0 x1 x2 x3 (ix2 r j)
      = Cert.Spec.msg2 (Cert.Spec.mat x0) (Cert.Spec.mat x1) (Cert.Spec.mat x2) (Cert.Spec.mat x3) r j := by
  rw [val_main_v15_apply]
  unfold Cert.Spec.msg2
  refine Finset.sum_congr rfl fun k _ => ?_
  have el : lidx_main_v15 (ix2 r j) k = ix2 r k :=
    funext fun a => Fin.ext (by match a with | ⟨0, _⟩ => rfl | ⟨1, _⟩ => rfl)
  have er : ridx_main_v15 (ix2 r j) k = ix2 k j :=
    funext fun a => Fin.ext (by match a with | ⟨0, _⟩ => rfl | ⟨1, _⟩ => rfl)
  rw [el, er, v14_eq]

/-- The transpose reads `B` at the swapped coordinates. -/
theorem v0_eq (f r : Fin 4096) : val_main_v0 (F := Ideal) x1 (ix2 f r) = Cert.Spec.mat x1 r f := by
  rw [val_main_v0_apply]
  exact congrArg x1 (funext fun a => Fin.ext (by match a with | ⟨0, _⟩ => rfl | ⟨1, _⟩ => rfl))

/-- The column sums of `B`: the row sums of its transpose, started from zero. -/
theorem v17_eq (f : Fin 4096) :
    val_main_v17 (F := Ideal) x1 (ix1 f) = Cert.Spec.colSum (Cert.Spec.mat x1) f := by
  rw [val_main_v17_apply, val_main_cst_3_apply, Ideal.ofBits_def, Ideal.ofBits_zero_f32, zero_add]
  unfold Cert.Spec.colSum
  refine Finset.sum_congr rfl fun r _ => ?_
  have ei : idx_main_v17 (ix1 f) r = ix2 f r :=
    funext fun a => Fin.ext (by match a with | ⟨0, _⟩ => rfl | ⟨1, _⟩ => rfl)
  rw [ei, v0_eq]

/-- The second message gathered on the faces, `Bᵀ · (edge · W2)`: the factors in the other order. -/
theorem v16_eq (f : Fin 4096) (j : Fin 64) :
    val_main_v16 (F := Ideal) x0 x1 x2 x3 (ix2 f j)
      = Cert.Spec.agg2 (Cert.Spec.mat x0) (Cert.Spec.mat x1) (Cert.Spec.mat x2) (Cert.Spec.mat x3) f j := by
  rw [val_main_v16_apply]
  unfold Cert.Spec.agg2
  refine Finset.sum_congr rfl fun r _ => ?_
  have el : lidx_main_v16 (ix2 f j) r = ix2 f r :=
    funext fun a => Fin.ext (by match a with | ⟨0, _⟩ => rfl | ⟨1, _⟩ => rfl)
  have er : ridx_main_v16 (ix2 f j) r = ix2 r j :=
    funext fun a => Fin.ext (by match a with | ⟨0, _⟩ => rfl | ⟨1, _⟩ => rfl)
  rw [el, er, v0_eq, v15_eq, mul_comm]

/-- One over the column sum, broadcast along the features. -/
theorem v21_eq (f : Fin 4096) (j : Fin 64) :
    val_main_v21 (F := Ideal) x1 (ix2 f j) = Ideal.div 1 (Cert.Spec.colSum (Cert.Spec.mat x1) f) := by
  rw [val_main_v21_apply, val_main_v20_apply]
  have ei : idx_main_v20 (idx_main_v21 (ix2 f j)) = ix1 f :=
    funext fun a => Fin.ext (by match a with | ⟨0, _⟩ => rfl)
  rw [ei, val_main_v19_apply, val_main_v18_apply, val_main_cst_4_apply, v17_eq, Ideal.hostDivf_def, Ideal.ofBits_def,
    ofBits_one_f32]

end

/-- The reference's result term, read at face `f` and feature `j`, is the layer's result there. -/
theorem ref_face (x0 : (⟨S4096x128, .f32⟩ : BufTy).Contents (Elt Ideal)) (x1 : (⟨S4096x4096, .f32⟩ : BufTy).Contents (Elt Ideal))
    (x2 : (⟨S128x64, .f32⟩ : BufTy).Contents (Elt Ideal)) (x3 : (⟨S64x64, .f32⟩ : BufTy).Contents (Elt Ideal))
    (f : Fin 4096) (j : Fin 64) :
    val_main_v28 (F := Ideal) x0 x1 x2 x3 (ix2 f j)
      = Cert.Spec.face (Cert.Spec.mat x0) (Cert.Spec.mat x1) (Cert.Spec.mat x2) (Cert.Spec.mat x3) f j := by
  rw [val_main_v28_apply, val_main_v27_apply, val_main_cst_6_apply, val_main_v26_apply, val_main_v25_apply,
    val_main_cst_5_apply, val_main_v24_apply, val_main_v23_apply, val_main_v22_apply, v21_eq, v16_eq]
  simp only [Ideal.hostDivf_def, Ideal.ofBits_def, ofBits_one_f32, Ideal.addf_def, Ideal.hostUnary_exp_def,
    Ideal.hostNegf_def, Ideal.negf_def, Ideal.mulf_def]
  unfold Cert.Spec.face Ideal.logistic
  rw [mul_comm]

end Cert.ReferenceIdeal.RefValue

end
-- ==== Proof.lean ====
/-
  A fused two-step incidence convolution against its jnp reference, over the extended reals.

  The layer: with an incidence matrix `B` (4096 edges × 4096 faces), face features `X` (4096 × 128) and weights
  `W1` (128 × 64), `W2` (64 × 64),
      edge = σ ((B · (X · W1)) scaled row by row by 1 / rowsum B),
      face = σ ((Bᵀ · (edge · W2)) scaled row by row by 1 / colsum B),      σ x = 1 / (1 + e^(-x)).
  The reference computes it that way. The kernel streams `B` once, in four blocks of 1024 edge rows: at the first
  grid point it stores `X · W1` padded to 128 columns with a column of ones at index 64, so that one matrix product
  of a block of `B` with it yields the gathered message and, in column 64, the block's row sums; each point then
  forms its block of edge features, their message padded to 72 columns with a column of ones, and adds that block's
  `(message)ᵀ · B_block` — rows 0 to 63 the face sums, row 64 the column sums — into an accumulator; the last point
  normalises, applies σ and transposes.

  Over the extended reals the two are one function (Proof/Spec.lean): a product with the column of ones is the sum
  itself, the four blocks' sums add up to the sum over all edge rows, and the remaining differences are the order of
  two factors. None of this needs the inputs finite, so the precondition is never opened.

  The kernel's result array is read off the grid run point by point: what each control case of the body stores
  (Proof/Pieces.lean), what the two scratch buffers hold after each point by induction on the point
  (Proof/Invariant.lean), the stores' arithmetic entry by entry (Proof/Payloads.lean), the windows' blocks as rows of
  the arrays (Proof/Blocks.lean), and the one write-back after the last point (Proof/KernelValue.lean). The
  reference's result is read stage by stage (Proof/RefIsSpec.lean).
-/
import proofs.«105366_g4337916969171_cont_sun_c4_63_14_alg».proof.Defs
import proofs.«105366_g4337916969171_cont_sun_c4_63_14_alg».proof.Proof.Gen.Kernel
import proofs.«105366_g4337916969171_cont_sun_c4_63_14_alg».proof.Proof.Gen.Kernel.Skeleton
import proofs.«105366_g4337916969171_cont_sun_c4_63_14_alg».proof.Proof.Gen.Kernel.Launch
import proofs.«105366_g4337916969171_cont_sun_c4_63_14_alg».proof.Proof.Gen.Kernel.Points
import proofs.«105366_g4337916969171_cont_sun_c4_63_14_alg».proof.Proof.Gen.Kernel.Frame
import proofs.«105366_g4337916969171_cont_sun_c4_63_14_alg».proof.Proof.Gen.KernelIdeal
import proofs.«105366_g4337916969171_cont_sun_c4_63_14_alg».proof.Proof.Gen.KernelIdeal.Skeleton
import proofs.«105366_g4337916969171_cont_sun_c4_63_14_alg».proof.Proof.Gen.KernelIdeal.Launch
import proofs.«105366_g4337916969171_cont_sun_c4_63_14_alg».proof.Proof.Gen.KernelIdeal.Points
import proofs.«105366_g4337916969171_cont_sun_c4_63_14_alg».proof.Proof.Gen.KernelIdeal.Frame
import proofs.«105366_g4337916969171_cont_sun_c4_63_14_alg».proof.Proof.Gen.ReferenceIdeal
import proofs.«105366_g4337916969171_cont_sun_c4_63_14_alg».proof.Proof.Gen.Pre_finite_inputs
import proofs.«105366_g4337916969171_cont_sun_c4_63_14_alg».proof.Proof.Gen.KernelIdeal.Value
import proofs.«105366_g4337916969171_cont_sun_c4_63_14_alg».proof.Proof.Gen.ReferenceIdeal.Run
import proofs.«105366_g4337916969171_cont_sun_c4_63_14_alg».proof.Proof.Gen.ReferenceIdeal.Read
import proofs.«105366_g4337916969171_cont_sun_c4_63_14_alg».proof.Proof.KernelValue
import proofs.«105366_g4337916969171_cont_sun_c4_63_14_alg».proof.Proof.RefIsSpec
import Idealize.ShloMosaic.Adequacy
import Idealize.ShloMosaic.Init

noncomputable section

namespace Cert.Proof

open Idealize.ShloMosaic Idealize.SL.Sem Idealize.ShloMosaic.ValueIdx

/-- The kernel as printed runs to the end without a fault and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the four arguments, the kernel's result array and the reference's both end at the
    layer's result of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2]
  funext i
  obtain ⟨f, j, rfl⟩ : ∃ (f : Fin 4096) (j : Fin 64), i = ix2 f j := ⟨i 0, i 1, eq_ix2 i⟩
  rw [Cert.ReferenceIdeal.RefValue.ref_face]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
